-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32 : Shape := ⟨1, ![32]⟩
abbrev S1024x1024 : Shape := ⟨2, ![1024, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S32x512x1024 .f32) (main_arg1 : IVec S32 32) (main_arg2 : FVec F S1024x1024 .f32) (main_arg3 : FVec F S1024x1024 .f32) (main_arg4 : FVec F S1024x1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S32x512x1024 : Shape := ⟨3, ![32, 512, 1024]⟩
abbrev S32 : Shape := ⟨1, ![32]⟩
abbrev S1024x1024 : Shape := ⟨2, ![1024, 1024]⟩
abbrev S1x512x1024 : Shape := ⟨3, ![1, 512, 1024]⟩
abbrev S1 : Shape := ⟨1, ![1]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 7
  | .smem => 1
  | _ => 0

abbrev bufTy : (tb : Table) → Fin (tcTables nBuf tb) → BufTy
  | .hbm, ⟨0, _⟩ => ⟨S32x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .smem, ⟨0, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S512x1024_p1_0_S1024x512 : S512x1024.Transposes [1, 0] S1024x512
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S32x512x1024.size a
  hwx0_4 : ∀ i : grid0.Coords, EltTy.bits .f32 = 32 ∨ (Rect.block (s := S32x512x1024) S1x512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_v0) S1024x1024.size reads0_1 false true 1 stage0_1 sem0_1 nbuf0_1 hstage0_1

abbrev spec0_2 : Pipeline.WinSpec sig grid0.rank :=
  Pipeline.WinSpec.ofSpec (Memref.whole main_v1) S1024x1024.size reads0_2 false true 1 stage0_2 sem0_2 nbuf0_2 hstage0_2

abbrev spec0_3 : Pipeline.WinSpec sig grid0.rank :=
  Pipeline.WinSpec.ofSpec (Memref.whole main_v2) S1024x1024.size reads0_3 false true 1 stage0_3 sem0_3 nbuf0_3 hstage0_3

abbrev spec0_4 : Pipeline.WinSpec sig grid0.rank :=
  Pipeline.WinSpec.ofSpec (Memref.whole main_v3) S1x512x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S32 : Shape := ⟨1, ![32]⟩
abbrev S1024x1024 : Shape := ⟨2, ![1024, 1024]⟩
abbrev S512 : Shape := ⟨1, ![512]⟩
abbrev S1x512 : Shape := ⟨2, ![1, 512]⟩
abbrev S32x1 : Shape := ⟨2, ![32, 1]⟩
abbrev S32x512 : Shape := ⟨2, ![32, 512]⟩
abbrev S32x1x512 : Shape := ⟨3, ![32, 1, 512]⟩
abbrev S32x512x512 : Shape := ⟨3, ![32, 512, 512]⟩
abbrev S_ : Shape := ⟨0, ![]⟩
abbrev S32x512x1 : Shape := ⟨3, ![32, 512, 1]⟩

abbrev nBuf : Space → Nat
  | .hbm => 36
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S32x512x1024, .f32⟩
  | .hbm, ⟨6, _⟩ => ⟨S32x512x1024, .f32⟩
  | .hbm, ⟨7, _⟩ => ⟨S32x512x1024, .f32⟩
  | .hbm, ⟨8, _⟩ => ⟨S512, .i32⟩
  | .hbm, ⟨9, _⟩ => ⟨S1x512, .i32⟩
  | .hbm, ⟨10, _⟩ => ⟨S32x1, .i32⟩
  | .hbm, ⟨11, _⟩ => ⟨S32x512, .i32⟩
  | .hbm, ⟨12, _⟩ => ⟨S32x512, .i32⟩
  | .hbm, ⟨13, _⟩ => ⟨S32x512, .i1⟩
  | .hbm, ⟨14, _⟩ => ⟨S32x1x512, .i1⟩
  | .hbm, ⟨15, _⟩ => ⟨S32x512x512, .f32⟩
  | .hbm, ⟨16, _⟩ => ⟨S_, .f32⟩
  | .hbm, ⟨17, _⟩ => ⟨S32x512x512, .i1⟩
  | .hbm, ⟨18, _⟩ => ⟨S32x512x512, .f32⟩
  | .hbm, ⟨19, _⟩ => ⟨S32x512x512, .f32⟩
  | .hbm, ⟨20, _⟩ => ⟨S_, .f32⟩
  | .hbm, ⟨21, _⟩ => ⟨S32x512, .f32⟩
  | .hbm, ⟨22, _⟩ => ⟨S_, .f32⟩
  | .hbm, ⟨23, _⟩ => ⟨S32x512, .f32⟩
  | .hbm, ⟨24, _⟩ => ⟨S32x512, .f32⟩
  | .hbm, ⟨25, _⟩ => ⟨S32x512x1, .f32⟩
  | .hbm, ⟨26, _⟩ => ⟨S32x512x512, .f32⟩
  | .hbm, ⟨27, _⟩ => ⟨S32x512x512, .f32⟩
  | .hbm, ⟨28, _⟩ => ⟨S32x512x512, .f32⟩
  | .hbm, ⟨29, _⟩ => ⟨S_, .f32⟩
  | .hbm, ⟨30, _⟩ => ⟨S32x512, .f32⟩
  | .hbm, ⟨31, _⟩ => ⟨S32x512x1, .f32⟩
  | .hbm, ⟨32, _⟩ => ⟨S32x512x512, .f32⟩
  | .hbm, ⟨33, _⟩ => ⟨S32x512x512, .f32⟩
  | .hbm, ⟨34, _⟩ => ⟨S32x512x1024, .f32⟩
  | .hbm, ⟨35, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S32_S32x1_0 : S32.BroadcastsInDim S32x1 (![0] : Fin 1 → Fin S32x1.rank)
  bcast_S1x512_S32x512_0_1 : S1x512.BroadcastsInDim S32x512 (![0, 1] : Fin 2 → Fin S32x512.rank)
  bcast_S32x1_S32x512_0_1 : S32x1.BroadcastsInDim S32x512 (![0, 1] : Fin 2 → Fin S32x512.rank)
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  bcast_S_S32x512x512 : S_.BroadcastsInDim S32x512x512 (![] : Fin 0 → Fin S32x512x512.rank)
  reducesTo_S32x512x512_S32x512_d2 : S32x512x512.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  dot_S32x512x1024_S1024x1024_S32x512x1024_2_0_01_1_n_n_wf : DotDims.WF S32x512x1024 S1024x1024 S32x512x1024 [2] [0] [0, 1] [1] [] []
  dot_S32x512x1024_S32x512x1024_S32x512x512_2_2_1_1_0_0_wf : DotDims.WF S32x512x1024 S32x512x1024 S32x512x512 [2] [2] [1] [1] [0] [0]
  dot_S32x512x512_S32x512x1024_S32x512x1024_2_1_1_2_0_0_wf : DotDims.WF S32x512x512 S32x512x1024 S32x512x1024 [2] [1] [1] [2] [0] [0]

variable [Facts₀]

def dot_S32x512x1024_S1024x1024_S32x512x1024_2_0_01_1_n_n : DotDims S32x512x1024 S1024x1024 S32x512x1024 where
  lhsContracting := [2]
  rhsContracting := [0]
  lhsNonContracting := [0, 1]
  rhsNonContracting := [1]
  lhsBatch := []
  rhsBatch := []
  wf := dot_S32x512x1024_S1024x1024_S32x512x1024_2_0_01_1_n_n_wf
def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf
def dot_S32x512x512_S32x512x1024_S32x512x1024_2_1_1_2_0_0 : DotDims S32x512x512 S32x512x1024 S32x512x1024 where
  lhsContracting := [2]
  rhsContracting := [1]
  lhsNonContracting := [1]
  rhsNonContracting := [2]
  lhsBatch := [0]
  rhsBatch := [0]
  wf := dot_S32x512x512_S32x512x1024_S32x512x1024_2_1_1_2_0_0_wf

class Facts : Prop extends Facts₀ where

variable [Facts]
-- ==== Proof.Attn.lean ====
/-
  Single-head attention over one sequence, with a residual, as a function of the sequence's rows and the three
  projection matrices, on the extended reals.

  For a sequence `x : [L, C]`, matrices `Wq Wk : [C, A]`, `Wv : [C, D]` and a length word `len`:
  the queries, keys and values are the row products `Q = x Wq`, `K = x Wk`, `V = x Wv`; the score of query row `q`
  against key row `k` is `Σ_a Q(q,a) K(k,a)`, replaced by a fill value where the key position is not below `len`
  (a signed comparison of 32-bit words); the weights of a query row are `e^(s − max_k s)`; and the result is the
  weighted mean of the value rows plus the query position's own value row.

  Two arrangements of the weighted mean are stated: the weighted sum divided by the weights' total (`attnSumThenDiv`), and
  the sum of the value rows each weighted by its weight over the total (`attnDivThenSum`). They agree when every entry is
  a real number (Proof/AttnLaw.lean).
-/
import Idealize.ShloMosaic.PureOps.Ideal
import Mathlib.Algebra.BigOperators.Group.Finset.Basic

noncomputable section

namespace Cert.Attn

open Idealize.ShloMosaic

variable {L C A D : Nat}

/-- An extended real that is a real number. -/
def IsReal (x : EReal) : Prop := ∃ r : ℝ, x = (r : EReal)

/-- Rows times a matrix: `(x W)(q, a) = Σ_c x(q, c) · W(c, a)`. -/
def proj (x : Fin L → Fin C → EReal) (W : Fin C → Fin A → EReal) (q : Fin L) (a : Fin A) : EReal :=
  ∑ c : Fin C, x q c * W c a

/-- The score of query row `q` against key row `k`: `Σ_a Q(q, a) · K(k, a)`. -/
def score (Q K : Fin L → Fin A → EReal) (q k : Fin L) : EReal :=
  ∑ a : Fin A, Q q a * K k a

/-- The one-bit word saying that key position `k` is below the length word, both read as signed 32-bit integers. -/
def keyBelow (len : BitVec 32) (k : Fin L) : BitVec 1 :=
  IntOp.cmpi .slt (BitVec.ofNat 32 k.val) len

/-- The scores with the positions at or beyond the length replaced by the fill value. -/
def masked (len : BitVec 32) (fill : EReal) (S : Fin L → Fin L → EReal) (q k : Fin L) : EReal :=
  if keyBelow len k = 1 then S q k else fill

/-- The largest entry of a row (the bottom element for an empty row). -/
def rowMax (s : Fin L → EReal) : EReal :=
  (Finset.univ : Finset (Fin L)).fold max ⊥ s

/-- The weight of key `k` in query row `q`: `e^(s(q,k) − max_k' s(q,k'))`. -/
def weight (s : Fin L → Fin L → EReal) (q k : Fin L) : EReal :=
  Ideal.exp (s q k - rowMax (s q))

/-- The total of a query row's weights. -/
def total (s : Fin L → Fin L → EReal) (q : Fin L) : EReal :=
  ∑ k : Fin L, weight s q k

/-- The masked scores of a sequence. -/
def scores (len : BitVec 32) (fill : EReal) (x : Fin L → Fin C → EReal) (Wq Wk : Fin C → Fin A → EReal) :
    Fin L → Fin L → EReal :=
  masked len fill (score (proj x Wq) (proj x Wk))

/-- Attention with the weighted sum of the value rows formed first and divided by the weights' total afterwards. -/
def attnSumThenDiv (len : BitVec 32) (fill : EReal) (x : Fin L → Fin C → EReal) (Wq Wk : Fin C → Fin A → EReal)
    (Wv : Fin C → Fin D → EReal) (q : Fin L) (v : Fin D) : EReal :=
  Ideal.div (∑ k : Fin L, weight (scores len fill x Wq Wk) q k * proj x Wv k v) (total (scores len fill x Wq Wk) q)
    + proj x Wv q v

/-- Attention with each weight divided by the weights' total first and the value rows summed afterwards. -/
def attnDivThenSum (len : BitVec 32) (fill : EReal) (x : Fin L → Fin C → EReal) (Wq Wk : Fin C → Fin A → EReal)
    (Wv : Fin C → Fin D → EReal) (q : Fin L) (v : Fin D) : EReal :=
  (∑ k : Fin L, Ideal.div (weight (scores len fill x Wq Wk) q k) (total (scores len fill x Wq Wk) q) * proj x Wv k v)
    + proj x Wv q v

end Cert.Attn

end
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.LibColumn.lean ====
/-
  A column vector made from a vector, and broadcast along rows, read at an index.

  A vector `x : [a]` cast to the column `[a, 1]` reads, at `(i, u)`, `x i`; a column `v : [a, 1]` broadcast to `[a, b]`
  reads, at `(p, c)`, the column's entry of row `p`. Together: a per-row quantity (a row's maximum, a row's sum) kept as a
  column and subtracted from or divided into every entry of its row.
-/
import Idealize.ShloMosaic.Lib.Pipeline.Value
import Idealize.ShloMosaic.Lib.ValueIdx
import Idealize.ShloMosaic.Lib.ValueLayout

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and broadcast along the rows reads, at `(p, c)`, the vector at `p`. -/
theorem broadcastTo_column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.Lib.Column

end
-- ==== Proof.KernelPay.lean ====
/-
  What the attention kernel's body computes from one sequence's block, the three projection matrices and the
  sequence's length word, entry by entry, on the extended reals.

  The body's one stored value is read here at entry `(0, q, v)` of the `[1, 512, 1024]` output block. Going through the
  body's operations outermost first: the block is the `[512, 1024]` result with a unit axis in front; the result is the
  quotient of the weighted sum of the value rows by the row's total weight, plus the value row of position `q`; the
  weights are exponentials of the masked scores less their row maximum; the scores are the products of the query rows
  with the transposed key rows; queries, keys and values are the block's rows times the matrices. Changes of float
  format are the identity on the extended reals, and a product into a zero accumulator is the plain sum over the
  contracted coordinate. The outcome is `Cert.Attn.attnSumThenDiv` of the block's rows.
-/
import proofs.«410006_j24086176596074_2_alg».proof.Proof.Gen.KernelIdeal.Skeleton
import proofs.«410006_j24086176596074_2_alg».proof.Proof.Attn
import proofs.«410006_j24086176596074_2_alg».proof.Proof.LibMatmulPlain
import proofs.«410006_j24086176596074_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## The stages of the body, named -/

/-- The block's rows: the unit axis dropped, the format changed. -/
def rowsOf (v2 : Vec Ideal S1x512x1024 .f32) : FVec Ideal S512x1024 .bf16 :=
  truncf .bf16 (shapeCast S512x1024 v2 shapeCasts_S1x512x1024_S512x1024 : FVec Ideal S512x1024 .f32) bitsLt_bf16_f32

/-- The rows times one matrix. -/
def projOf (v2 : Vec Ideal S1x512x1024 .f32) (w : Vec Ideal S1024x1024 .bf16) : FVec Ideal S512x1024 .f32 :=
  matmul dot_S512x1024_S1024x1024_S512x1024_1_0_0_1_n_n none (rowsOf v2)
    (shapeCast S1024x1024 w shapeCasts_S1024x1024_S1024x1024 : FVec Ideal S1024x1024 .bf16) (constant S512x1024 .f32 0x00000000#32)

/-- The masked scores. -/
def scoreOf (v1 : Elt Ideal .i32) (v2 : Vec Ideal S1x512x1024 .f32) (v5 v7 : Vec Ideal S1024x1024 .bf16) : FVec Ideal S512x512 .f32 :=
  select (cmpi .slt (iota .tc S512x512 32 [1] iota_S512x512_d1_w32) (broadcast S512x512 v1))
    (matmul dot_S512x1024_S1024x512_S512x512_1_0_0_1_n_n none (truncf .bf16 (projOf v2 v5) bitsLt_bf16_f32)
      (transpose S1024x512 [1, 0] (truncf .bf16 (projOf v2 v7) bitsLt_bf16_f32) transposes_S512x1024_p1_0_S1024x512)
      (constant S512x512 .f32 0x00000000#32))
    (broadcast S512x512 (Scalar.ofBits .f32 0xCF000000#32))

/-- The weights: the exponentials of the scores less their row maximum. -/
def weightOf (s : FVec Ideal S512x512 .f32) : FVec Ideal S512x512 .f32 :=
  exp (subf s (broadcastTo S512x512 (shapeCast S512x1 (multiReduction .maximumf [1] S512 s 0xFF800000#32 reduces_S512x512_S512 (.inl rfl) rfl)
    shapeCasts_S512_S512x1) broadcasts_S512x1_S512x512))

/-- The body's stored value is these stages composed. -/
theorem pay_eq (v1 : Elt Ideal .i32) (v2 : Vec Ideal S1x512x1024 .f32) (v5 v7 v9 : Vec Ideal S1024x1024 .bf16) :
    k0_pay1 (F := Ideal) v1 v2 v5 v7 v9
      = shapeCast S1x512x1024
          (addf (divf
            (matmul dot_S512x512_S512x1024_S512x1024_1_0_0_1_n_n none (truncf .bf16 (weightOf (scoreOf v1 v2 v5 v7)) bitsLt_bf16_f32)
              (truncf .bf16 (projOf v2 v9) bitsLt_bf16_f32) (constant S512x1024 .f32 0x00000000#32))
            (broadcastTo S512x1024 (shapeCast S512x1
              (multiReduction .add [1] S512 (weightOf (scoreOf v1 v2 v5 v7)) 0x00000000#32 reduces_S512x512_S512 (.inl rfl) rfl)
              shapeCasts_S512_S512x1) broadcasts_S512x1_S512x1024))
            (projOf v2 v9))
          shapeCasts_S512x1024_S1x512x1024 := rfl

end Cert.KernelIdeal.Pay

end
-- ==== Proof.AttnLaw.lean ====
/-
  The two arrangements of the weighted mean in single-head attention agree on the real numbers.

  With every entry of the sequence and of the three matrices a real number, the projections and the scores are finite sums
  of products of reals; a masked score is a score or the fill value; the largest entry of a nonempty row of reals is one
  of the entries; so each weight is the real exponential of a real number, which is positive, and a row's total is a
  positive real number. Dividing by it is multiplying by its real reciprocal, and
  (Σ_k w_k · V_k) · t⁻¹ = Σ_k (w_k · t⁻¹) · V_k.

  Also: the three 32-bit patterns the programs spell (minus infinity, zero, and −2³¹) as extended reals.
-/
import Idealize.ShloMosaic.PureOps.Ideal
import Mathlib.Algebra.BigOperators.Group.Finset.Basic
import Mathlib.Algebra.BigOperators.Ring.Finset
import Mathlib.Data.EReal.Basic
import Mathlib.Data.EReal.Operations
import Mathlib.Data.EReal.Inv
import Mathlib.Data.Finset.Lattice.Fold
import Mathlib.Analysis.SpecialFunctions.Exp
import proofs.«410006_j24086176596074_2_alg».proof.Proof.Attn

noncomputable section

namespace Cert.Attn

open Idealize.ShloMosaic

variable {L C A D : Nat}

/-! ### The constants -/

/-- The pattern of minus infinity denotes the bottom element. -/
theorem negInf_eq_bot : Ideal.ofBits .f32 0xFF800000#32 = (⊥ : EReal) := by
  simp [Ideal.ofBits, Ideal.ieee]

/-- The pattern of zero denotes zero. -/
theorem zero_eq : Ideal.ofBits .f32 0x00000000#32 = (0 : EReal) := by
  simp [Ideal.ofBits, Ideal.ieee]

/-- The pattern of −2³¹ denotes the real number −2³¹. -/
theorem fill_eq : Ideal.ofBits .f32 0xCF000000#32 = ((-2147483648 : ℝ) : EReal) := by
  simp [Ideal.ofBits, Ideal.ieee, -EReal.coe_mul]; norm_num

/-- The fill value is a real number. -/
theorem fill_isReal : IsReal (Ideal.ofBits .f32 0xCF000000#32) := ⟨_, fill_eq⟩

/-! ### Real numbers among the extended reals -/

theorem isReal_coe (r : ℝ) : IsReal (r : EReal) := ⟨r, rfl⟩

theorem isReal_zero : IsReal (0 : EReal) := ⟨0, rfl⟩

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- A finite sum of coercions is the coercion of the sum. -/
theorem coe_sum {ι : Type*} (s : Finset ι) (f : ι → ℝ) :
    ∑ i ∈ s, (f i : EReal) = ((∑ i ∈ s, f i : ℝ) : EReal) := by
  classical
  induction s using Finset.induction_on with
  | empty => rw [Finset.sum_empty, Finset.sum_empty]; rfl
  | insert a s ha ih => rw [Finset.sum_insert ha, Finset.sum_insert ha, ih, EReal.coe_add]

/-! ### The pieces of attention on real entries -/

theorem isReal_proj {x : Fin L → Fin C → EReal} {W : Fin C → Fin A → EReal} (hx : ∀ q c, IsReal (x q c))
    (hW : ∀ c a, IsReal (W c a)) (q : Fin L) (a : Fin A) : IsReal (proj x W q a) :=
  isReal_sum _ _ fun c _ => isReal_mul (hx q c) (hW c a)

theorem isReal_score {Q K : Fin L → Fin A → EReal} (hQ : ∀ q a, IsReal (Q q a)) (hK : ∀ k a, IsReal (K k a))
    (q k : Fin L) : IsReal (score Q K q k) :=
  isReal_sum _ _ fun a _ => isReal_mul (hQ q a) (hK k a)

theorem isReal_masked (len : BitVec 32) {fill : EReal} (hfill : IsReal fill) {S : Fin L → Fin L → EReal}
    (hS : ∀ q k, IsReal (S q k)) (q k : Fin L) : IsReal (masked len fill S q k) := by
  unfold masked
  split
  · exact hS q k
  · exact hfill

theorem isReal_scores (len : BitVec 32) {fill : EReal} (hfill : IsReal fill) {x : Fin L → Fin C → EReal}
    {Wq Wk : Fin C → Fin A → EReal} (hx : ∀ q c, IsReal (x q c)) (hq : ∀ c a, IsReal (Wq c a))
    (hk : ∀ c a, IsReal (Wk c a)) (q k : Fin L) : IsReal (scores len fill x Wq Wk q k) :=
  isReal_masked len hfill (isReal_score (isReal_proj hx hq) (isReal_proj hx hk)) q k

/-- The fold of the maximum from the bottom element over a nonempty finite set is attained at a member. -/
theorem fold_max_mem {ι : Type*} (s : Finset ι) (hs : s.Nonempty) (f : ι → EReal) :
    ∃ i ∈ s, s.fold max ⊥ f = f i :=
  Finset.exists_mem_eq_sup s hs f

/-- The largest entry of a nonempty row of real numbers is a real number. -/
theorem isReal_rowMax (hL : 0 < L) {s : Fin L → EReal} (hs : ∀ k, IsReal (s k)) : IsReal (rowMax s) := by
  have hne : (Finset.univ : Finset (Fin L)).Nonempty := ⟨⟨0, hL⟩, Finset.mem_univ _⟩
  obtain ⟨i, -, hi⟩ := fold_max_mem Finset.univ hne s
  unfold rowMax
  rw [hi]
  exact hs i

/-- Each weight of a nonempty row of real scores is a positive real number. -/
theorem weight_pos (hL : 0 < L) {s : Fin L → Fin L → EReal} (hs : ∀ q k, IsReal (s q k)) (q k : Fin L) :
    ∃ w : ℝ, 0 < w ∧ weight s q k = (w : EReal) := by
  obtain ⟨a, ha⟩ := hs q k
  obtain ⟨m, hm⟩ := isReal_rowMax hL (hs q)
  refine ⟨Real.exp (a - m), Real.exp_pos _, ?_⟩
  unfold weight
  rw [ha, hm, ← EReal.coe_sub]
  rfl

/-- The total of a nonempty row's weights is a positive real number. -/
theorem total_pos (hL : 0 < L) {s : Fin L → Fin L → EReal} (hs : ∀ q k, IsReal (s q k)) (q : Fin L) :
    ∃ t : ℝ, 0 < t ∧ total s q = (t : EReal) := by
  choose w hwpos hw using weight_pos hL hs q
  refine ⟨∑ k : Fin L, w k, ?_, ?_⟩
  · exact Finset.sum_pos (fun k _ => hwpos k) ⟨⟨0, hL⟩, Finset.mem_univ _⟩
  · unfold total
    rw [← coe_sum]
    exact Finset.sum_congr rfl fun k _ => hw k

/-! ### The two arrangements -/

/-- On real numbers, dividing a weighted sum by a nonzero total is summing with each weight divided by it. -/
theorem div_sum_eq_sum_div {ι : Type*} (s : Finset ι) (w V : ι → ℝ) {t : ℝ} (ht : t ≠ 0) :
    Ideal.div (∑ k ∈ s, (w k : EReal) * (V k : EReal)) (t : EReal)
      = ∑ k ∈ s, Ideal.div (w k : EReal) (t : EReal) * (V k : EReal) := by
  rw [Ideal.div_coe ht]
  have h1 : ∀ k ∈ s, (w k : EReal) * (V k : EReal) = ((w k * V k : ℝ) : EReal) := fun k _ => (EReal.coe_mul _ _).symm
  have h2 : ∀ k ∈ s, Ideal.div (w k : EReal) (t : EReal) * (V k : EReal) = ((w k * (1 / t) * V k : ℝ) : EReal) :=
    fun k _ => by rw [Ideal.div_coe ht, ← EReal.coe_mul, ← EReal.coe_mul]
  rw [Finset.sum_congr rfl h1, Finset.sum_congr rfl h2, coe_sum, coe_sum, ← EReal.coe_mul, Finset.sum_mul]
  exact congrArg _ (Finset.sum_congr rfl fun k _ => by ring)

/-- With every entry a real number and a nonempty sequence, the weighted sum of the value rows divided by the weights'
    total is the sum of the value rows each weighted by its weight over the total. -/
theorem attn_arrangements {L C A D : Nat} (hL : 0 < L) (len : BitVec 32) (fill : EReal) (hfill : IsReal fill)
    (x : Fin L → Fin C → EReal) (Wq Wk : Fin C → Fin A → EReal) (Wv : Fin C → Fin D → EReal)
    (hx : ∀ q c, IsReal (x q c)) (hq : ∀ c a, IsReal (Wq c a)) (hk : ∀ c a, IsReal (Wk c a)) (hv : ∀ c d, IsReal (Wv c d))
    (q : Fin L) (v : Fin D) :
    attnSumThenDiv len fill x Wq Wk Wv q v = attnDivThenSum len fill x Wq Wk Wv q v := by
  have hs : ∀ q k, IsReal (scores len fill x Wq Wk q k) := isReal_scores len hfill hx hq hk
  choose w _ hw using weight_pos hL hs q
  obtain ⟨t, htpos, ht⟩ := total_pos hL hs q
  choose V hV using fun k => isReal_proj hx hv k v
  unfold attnSumThenDiv attnDivThenSum
  rw [ht]
  congr 1
  have e1 : ∑ k : Fin L, weight (scores len fill x Wq Wk) q k * proj x Wv k v
      = ∑ k : Fin L, (w k : EReal) * (V k : EReal) := Finset.sum_congr rfl fun k _ => by rw [hw k, hV k]
  have e2 : ∑ k : Fin L, Ideal.div (weight (scores len fill x Wq Wk) q k) (t : EReal) * proj x Wv k v
      = ∑ k : Fin L, Ideal.div (w k : EReal) (t : EReal) * (V k : EReal) :=
    Finset.sum_congr rfl fun k _ => by rw [hw k, hV k]
  rw [e1, e2]
  exact div_sum_eq_sum_div Finset.univ w V htpos.ne'

end Cert.Attn

end
-- ==== Proof.KernelPayAt.lean ====
/-
  The attention kernel's body, read entry by entry.

  Each stage of the body named in Proof/KernelPay.lean is read at an index: the block's rows at (q, c) are the block at
  (0, q, c); the rows times a matrix are, at (q, a), the sum over c of row entry times matrix entry; the masked scores at
  (q, k) are the score of query row q against key row k where k is below the length word, and the fill value elsewhere;
  the weights at (q, k) are the exponentials of the scores less their row's maximum; a row's total is the sum of its
  weights. Put together, the body's stored value at (0, q, v) is Cert.Attn.attnSumThenDiv of the block's rows.
-/
import proofs.«410006_j24086176596074_2_alg».proof.Proof.KernelPay
import proofs.«410006_j24086176596074_2_alg».proof.Proof.AttnLaw

noncomputable section

namespace Cert.KernelIdeal.Pay

open Idealize.ShloMosaic Idealize.ShloMosaic.ValueIdx Cert.KernelIdeal Cert.KernelIdeal.Gen Cert.Attn

/-- The block's rows at (q, c): the block at (0, q, c). -/
theorem rowsOf_apply (v2 : Vec Ideal S1x512x1024 .f32) (q : Fin 512) (c : Fin 1024) :
    rowsOf v2 (ix2 q c) = v2 (ix3 (0 : Fin 1) q c) := by
  unfold rowsOf
  rw [truncf_apply, shapeCast_1ab_ab_apply]

/-- The rows times a matrix at (q, a): the sum over c of the row's entry times the matrix's. -/
theorem projOf_apply (v2 : Vec Ideal S1x512x1024 .f32) (w : Vec Ideal S1024x1024 .bf16) (q : Fin 512) (a : Fin 1024) :
    projOf v2 w (ix2 q a) = proj (fun q c => v2 (ix3 (0 : Fin 1) q c)) (fun c a => w (ix2 c a)) q a := by
  unfold projOf proj
  rw [shapeCast_self]
  refine (Cert.Lib.MatmulPlain.matmul_zero_apply (φ₁ := .bf16) (φ₂ := .bf16)
    dot_S512x1024_S1024x1024_S512x1024_1_0_0_1_n_n rfl rfl rfl rfl rfl rfl none (rowsOf v2) w q a).trans ?_
  exact Finset.sum_congr rfl fun c _ => by rw [rowsOf_apply]

/-- The one-bit word of the comparison at (q, k): whether position k is below the length word. -/
theorem below_apply (v1 : Elt Ideal .i32) (q k : Fin 512) :
    cmpi .slt (iota .tc S512x512 32 [1] iota_S512x512_d1_w32) (broadcast S512x512 v1) (ix2 q k) = keyBelow v1 k := by
  show IntOp.cmpi .slt (BitVec.ofNat 32 (0 * 512 + k.val)) v1 = IntOp.cmpi .slt (BitVec.ofNat 32 k.val) v1
  rw [Nat.zero_mul, Nat.zero_add]

/-- The product of the query rows with the transposed key rows at (q, k): the score of row q against row k. -/
theorem rawScore_apply (v2 : Vec Ideal S1x512x1024 .f32) (v5 v7 : Vec Ideal S1024x1024 .bf16) (q k : Fin 512) :
    matmul dot_S512x1024_S1024x512_S512x512_1_0_0_1_n_n none (truncf .bf16 (projOf v2 v5) bitsLt_bf16_f32)
        (transpose S1024x512 [1, 0] (truncf .bf16 (projOf v2 v7) bitsLt_bf16_f32) transposes_S512x1024_p1_0_S1024x512)
        (constant S512x512 .f32 0x00000000#32) (ix2 q k)
      = score (proj (fun q c => v2 (ix3 (0 : Fin 1) q c)) (fun c a => v5 (ix2 c a)))
          (proj (fun q c => v2 (ix3 (0 : Fin 1) q c)) (fun c a => v7 (ix2 c a))) q k := by
  refine (Cert.Lib.MatmulPlain.matmul_zero_apply (φ₁ := .bf16) (φ₂ := .bf16)
    dot_S512x1024_S1024x512_S512x512_1_0_0_1_n_n rfl rfl rfl rfl rfl rfl none _ _ q k).trans ?_
  unfold score
  exact Finset.sum_congr rfl fun a _ => by
    rw [truncf_apply, transpose_ix2_apply, truncf_apply, projOf_apply, projOf_apply]

/-- The masked scores at (q, k). -/
theorem scoreOf_apply (v1 : Elt Ideal .i32) (v2 : Vec Ideal S1x512x1024 .f32) (v5 v7 : Vec Ideal S1024x1024 .bf16)
    (q k : Fin 512) :
    scoreOf v1 v2 v5 v7 (ix2 q k)
      = scores v1 (Ideal.ofBits .f32 0xCF000000#32) (fun q c => v2 (ix3 (0 : Fin 1) q c)) (fun c a => v5 (ix2 c a))
          (fun c a => v7 (ix2 c a)) q k := by
  unfold scoreOf scores masked
  rw [select_apply, below_apply, rawScore_apply, broadcast_apply]
  rfl

/-- The reduced index (q) with the column coordinate k put back is (q, k). -/
theorem lift_row (h : S512x512.Reduces [1] S512) (q : Fin 512) (k : Fin (S512x512.size 1)) :
    h.lift (ix1 q) k = ix2 q (⟨k.val, k.isLt⟩ : Fin 512) := by
  funext c; apply Fin.ext
  fin_cases c <;> rfl

/-- The reduction by the maximum along the rows, at q: the largest entry of row q. -/
theorem rowMax_apply (s : FVec Ideal S512x512 .f32) (q : Fin 512) :
    multiReduction .maximumf [1] S512 s 0xFF800000#32 reduces_S512x512_S512 (.inl rfl) rfl (ix1 q)
      = rowMax (fun k => s (ix2 q k)) := by
  refine (Ideal.multiReduction_maximumf_single s 0xFF800000#32 reduces_S512x512_S512 (.inl rfl) rfl (ix1 q)).trans ?_
  rw [Ideal.ofBits_def, negInf_eq_bot]
  unfold rowMax
  exact congrArg (fun f => Finset.fold max (⊥ : EReal) f (Finset.univ : Finset (Fin 512)))
    (funext fun k => congrArg s (lift_row _ q k))

/-- The weights at (q, k): the exponential of the score less its row's maximum. -/
theorem weightOf_apply (s : FVec Ideal S512x512 .f32) (q k : Fin 512) :
    weightOf s (ix2 q k) = weight (fun q k => s (ix2 q k)) q k := by
  unfold weightOf weight
  show Ideal.exp (s (ix2 q k) - broadcastTo S512x512 (shapeCast S512x1
    (multiReduction .maximumf [1] S512 s 0xFF800000#32 reduces_S512x512_S512 (.inl rfl) rfl) shapeCasts_S512_S512x1)
    broadcasts_S512x1_S512x512 (ix2 q k)) = _
  rw [Cert.Lib.Column.broadcastTo_column_apply, rowMax_apply]

/-- The reduction by the sum along the rows, at q: the sum of row q. -/
theorem rowSum_apply (w : FVec Ideal S512x512 .f32) (q : Fin 512) :
    multiReduction .add [1] S512 w 0x00000000#32 reduces_S512x512_S512 (.inl rfl) rfl (ix1 q)
      = ∑ k : Fin 512, w (ix2 q k) := by
  refine (Ideal.multiReduction_add_single w 0x00000000#32 reduces_S512x512_S512 (.inl rfl) rfl (ix1 q)).trans ?_
  exact Finset.sum_congr rfl fun k _ => congrArg w (lift_row _ q k)

/-- The weighted sum of the value rows at (q, v): the sum over k of the weight of k in row q times the value row k's
    entry v. -/
theorem weighted_apply (v1 : Elt Ideal .i32) (v2 : Vec Ideal S1x512x1024 .f32) (v5 v7 v9 : Vec Ideal S1024x1024 .bf16)
    (q : Fin 512) (v : Fin 1024) :
    matmul dot_S512x512_S512x1024_S512x1024_1_0_0_1_n_n none (truncf .bf16 (weightOf (scoreOf v1 v2 v5 v7)) bitsLt_bf16_f32)
        (truncf .bf16 (projOf v2 v9) bitsLt_bf16_f32) (constant S512x1024 .f32 0x00000000#32) (ix2 q v)
      = ∑ k : Fin 512, weightOf (scoreOf v1 v2 v5 v7) (ix2 q k)
          * proj (fun q c => v2 (ix3 (0 : Fin 1) q c)) (fun c a => v9 (ix2 c a)) k v := by
  refine (Cert.Lib.MatmulPlain.matmul_zero_apply (φ₁ := .bf16) (φ₂ := .bf16)
    dot_S512x512_S512x1024_S512x1024_1_0_0_1_n_n rfl rfl rfl rfl rfl rfl none _ _ q v).trans ?_
  exact Finset.sum_congr rfl fun k _ => by rw [truncf_apply, truncf_apply, projOf_apply]

/-- The weights of the body's masked scores at (q, k) are the weights of the sequence's masked scores. -/
theorem weightOf_scoreOf_apply (v1 : Elt Ideal .i32) (v2 : Vec Ideal S1x512x1024 .f32) (v5 v7 : Vec Ideal S1024x1024 .bf16)
    (q k : Fin 512) :
    weightOf (scoreOf v1 v2 v5 v7) (ix2 q k)
      = weight (scores v1 (Ideal.ofBits .f32 0xCF000000#32) (fun q c => v2 (ix3 (0 : Fin 1) q c)) (fun c a => v5 (ix2 c a))
          (fun c a => v7 (ix2 c a))) q k := by
  rw [weightOf_apply]
  exact congrArg (fun S => weight S q k) (funext fun q => funext fun k => scoreOf_apply v1 v2 v5 v7 q k)

/-- THE BODY'S STORED VALUE at (0, q, v): attention of the block's rows, the weighted sum formed first and divided by the
    weights' total afterwards. -/
theorem pay_apply (v1 : Elt Ideal .i32) (v2 : Vec Ideal S1x512x1024 .f32) (v5 v7 v9 : Vec Ideal S1024x1024 .bf16)
    (q : Fin 512) (v : Fin 1024) :
    k0_pay1 (F := Ideal) v1 v2 v5 v7 v9 (ix3 (0 : Fin 1) q v)
      = attnSumThenDiv v1 (Ideal.ofBits .f32 0xCF000000#32) (fun q c => v2 (ix3 (0 : Fin 1) q c))
          (fun c a => v5 (ix2 c a)) (fun c a => v7 (ix2 c a)) (fun c a => v9 (ix2 c a)) q v := by
  rw [pay_eq, shapeCast_ab_1ab_apply, addf_apply, divf_apply, weighted_apply,
    Cert.Lib.Column.broadcastTo_column_apply, rowSum_apply, projOf_apply]
  unfold attnSumThenDiv total
  rw [Finset.sum_congr rfl fun k _ => by rw [weightOf_scoreOf_apply],
    Finset.sum_congr rfl fun k _ => weightOf_scoreOf_apply v1 v2 v5 v7 q k]

end Cert.KernelIdeal.Pay

end
-- ==== Proof.KernelValue.lean ====
/-
  What the attention kernel leaves in its result array, on the extended reals: entry `(b, q, v)` is the attention of
  sequence `b` (`Cert.Attn.attnSumThenDiv` of that sequence's rows, the three matrices and the sequence's length word).

  The grid has one point per sequence. At point `t` the body loads the whole `[1, 512, 1024]` block of sequence `t`, the
  three whole `[1024, 1024]` matrices (which @main first rewrote in a narrower float format: the identity on the
  extended reals) and word `t` of the length table, and stores one value over the whole output block; so what the point
  writes back is the body's stored value of those loads, which Proof/KernelPayAt.lean reads entry by entry. Output block
  `t` is rows `(t, ·, ·)` of the array: the 32 blocks cover it, and each entry of the array is the entry of the one
  block that holds it.
-/
import proofs.«410006_j24086176596074_2_alg».proof.Proof.Gen.KernelIdeal.Frame
import proofs.«410006_j24086176596074_2_alg».proof.Proof.Attn
import proofs.«410006_j24086176596074_2_alg».proof.Proof.KernelPayAt
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen

variable {F : FTy → Type} [FloatOps F]

/-- The zero offsets of a rank-3 whole-buffer access. -/
theorem hz3 : (![0, 0, 0] : Fin 3 → Nat) = fun _ => 0 := funext fun a => by fin_cases a <;> rfl
/-- The zero offsets of a rank-2 whole-buffer access. -/
theorem hz2 : (![0, 0] : Fin 2 → Nat) = fun _ => 0 := funext fun a => by fin_cases a <;> rfl

/-- The length word the body reads from the table at the point's coordinate. -/
def lenWord (c : Dev nD) (i : grid0.Coords) (xt0 : TbBuf0 (F := F) c tbM0_0) : Elt F .i32 :=
  View.readAt (Elt F) tbM0_0.view (Rect.unit (s := S32) (k0_off1 i) S1.size (k0_off1_inb i)).toLoadRect xt0 (Shape.Idx.first (show 0 < S1.numel from by decide))

/-- What the body leaves in the output's staging buffer: its one store covers the block, and its payload is the body's
    value of the loaded blocks and the loaded length word (the loads read the whole buffers). -/
theorem out_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole)
    (x0 : Vec F S1x512x1024 .f32) (x1 : Vec F S1024x1024 .bf16) (x2 : Vec F S1024x1024 .bf16) (x3 : Vec F S1024x1024 .bf16) (xt0 : TbBuf0 (F := F) c tbM0_0) :
    out0_A_4 c i arg2 harg2 arg3 harg3 arg4 harg4 arg5 harg5 arg6 harg6 x0 x1 x2 x3 xt0 = k0_pay1 (lenWord c i xt0) x0 x1 x2 x3 := by
  unfold out0_A_4
  rw [View.read_writes_eq_canon _ _ _ (cover0_A_4 c i arg2 harg2 arg3 harg3 arg4 harg4 arg5 harg5 arg6 harg6 x0 x1 x2 x3 xt0)]
  unfold kernelRun0_A
  dsimp only
  sl_unfold_words
  rw [View.canon_unit_zero hz3]
  simp only [View.readAt_eq_ld, harg2.read_unread, harg3.read_unread, harg4.read_unread, harg5.read_unread,
    View.ld_unit_zero (S := S1x512x1024) hz3, View.ld_unit_zero (S := S1024x1024) hz2]
  rfl

/-- The word read is the table's entry at the point's coordinate. -/
theorem lenWord_eq (c : Dev nD) (i : grid0.Coords) (xt0 : TbBuf0 (F := F) c tbM0_0) :
    lenWord c i xt0 = xt0 (ix1 (⟨(i 0).val, (i 0).isLt⟩ : Fin 32)) := by
  unfold lenWord
  rw [View.readAt_apply]
  show xt0 _ = xt0 _
  refine congrArg xt0 (funext fun a => Fin.ext ?_)
  match a with
  | ⟨0, _⟩ =>
    show k0_off1 i 0 + 1 * 0 = (i 0).val
    rw [k0_off1_eq]
    rfl

/-! ## At the extended reals: the blocks, the point's write-back, the array -/
section AtIdeal
open Cert.Attn

variable (m : (ℓ : Loc nD τ sig) → Buf (Elt Ideal) ℓ) (ρ : Dev nD → PrngReg)

/-- The matrices as the region finds them: the launch's, their format changed (the identity on the extended reals). -/
theorem V_main_v0 (c : Dev nD) (i : S1024x1024.Idx) : (V m c main_v0 : S1024x1024.Idx → EReal) i = (m ((c : Thread nD τ).loc main_arg2) : S1024x1024.Idx → EReal) i := by
  have e : @Eq (FVec Ideal S1024x1024 .bf16) (V m c main_v0) (truncf .bf16 (m ((c : Thread nD τ).loc main_arg2) : FVec Ideal S1024x1024 .f32) bitsLt_bf16_f32) := by
    dsimp only [Gen.V, Gen.hostOps0]; after_results
  rw [e]; rfl

/-- The same for the second matrix. -/
theorem V_main_v1 (c : Dev nD) (i : S1024x1024.Idx) : (V m c main_v1 : S1024x1024.Idx → EReal) i = (m ((c : Thread nD τ).loc main_arg3) : S1024x1024.Idx → EReal) i := by
  have e : @Eq (FVec Ideal S1024x1024 .bf16) (V m c main_v1) (truncf .bf16 (m ((c : Thread nD τ).loc main_arg3) : FVec Ideal S1024x1024 .f32) bitsLt_bf16_f32) := by
    dsimp only [Gen.V, Gen.hostOps0]; after_results
  rw [e]; rfl

/-- The same for the third matrix. -/
theorem V_main_v2 (c : Dev nD) (i : S1024x1024.Idx) : (V m c main_v2 : S1024x1024.Idx → EReal) i = (m ((c : Thread nD τ).loc main_arg4) : S1024x1024.Idx → EReal) i := by
  have e : @Eq (FVec Ideal S1024x1024 .bf16) (V m c main_v2) (truncf .bf16 (m ((c : Thread nD τ).loc main_arg4) : FVec Ideal S1024x1024 .f32) bitsLt_bf16_f32) := by
    dsimp only [Gen.V, Gen.hostOps0]; after_results
  rw [e]; rfl

/-- The index maps over the grid: sequence `t` for the first and the last window, block zero for the matrices. -/
theorem idx_facts : ∀ t : Fin grid0.N, (grid0.coords t 0).val = t.val ∧ cc0_transform_0 (grid0.coords t) = ![t.val, 0, 0]
    ∧ cc0_transform_4 (grid0.coords t) = ![t.val, 0, 0] := by decide +kernel

/-- The input blocks at a point, at their literal types. -/
abbrev xblk (hO : Ok m) (c : Dev nD) (t : Fin (cfgM m hO).N) : Vec Ideal S1x512x1024 .f32 := iblk m hO c 0 t
abbrev wqblk (hO : Ok m) (c : Dev nD) (t : Fin (cfgM m hO).N) : Vec Ideal S1024x1024 .bf16 := iblk m hO c 1 t
abbrev wkblk (hO : Ok m) (c : Dev nD) (t : Fin (cfgM m hO).N) : Vec Ideal S1024x1024 .bf16 := iblk m hO c 2 t
abbrev wvblk (hO : Ok m) (c : Dev nD) (t : Fin (cfgM m hO).N) : Vec Ideal S1024x1024 .bf16 := iblk m hO c 3 t

/-- A grid point's number is below 32. -/
theorem tN (hO : Ok m) (t : Fin (cfgM m hO).N) : t.val < 32 := by have := t.isLt; have h : (cfgM m hO).N = 32 := N_0; omega

/-- Entry `(u, q, cc)` of point `t`'s sequence block is entry `(t, q, cc)` of the launch's array. -/
theorem xblk_apply (hO : Ok m) (c : Dev nD) (t : Fin (cfgM m hO).N) (u : Fin 1) (q : Fin 512) (cc : Fin 1024) :
    xblk m hO c t (ix3 u q cc) = (m ((c : Thread nD τ).loc main_arg0) : S32x512x1024.Idx → EReal) (ix3 (⟨t.val, tN m hO t⟩ : Fin 32) q cc) := by
  show V m c main_arg0 ((((cfgM m hO).win 0).blk t).view.emb (ix3 u q cc)) = _
  rw [V_main_arg0]
  refine congrArg (m ((c : Thread nD τ).loc main_arg0)) (funext fun a => Fin.ext ?_)
  obtain ⟨-, e0, -⟩ := idx_facts t
  match a with
  | ⟨0, _⟩ => show cc0_transform_0 (grid0.coords t) 0 * 1 + 1 * u.val = t.val; rw [e0]; show t.val * 1 + 1 * u.val = t.val; omega
  | ⟨1, _⟩ => show cc0_transform_0 (grid0.coords t) 1 * 512 + 1 * q.val = q.val; rw [e0]; show 0 * 512 + 1 * q.val = q.val; omega
  | ⟨2, _⟩ => show cc0_transform_0 (grid0.coords t) 2 * 1024 + 1 * cc.val = cc.val; rw [e0]; show 0 * 1024 + 1 * cc.val = cc.val; omega

/-- The first matrix's block is the whole launch matrix. -/
theorem wqblk_apply (hO : Ok m) (c : Dev nD) (t : Fin (cfgM m hO).N) (cc a : Fin 1024) :
    wqblk m hO c t (ix2 cc a) = (m ((c : Thread nD τ).loc main_arg2) : S1024x1024.Idx → EReal) (ix2 cc a) := by
  show V m c main_v0 ((((cfgM m hO).win 1).blk t).view.emb (ix2 cc a)) = _
  refine (V_main_v0 m c _).trans ?_
  refine congrArg (m ((c : Thread nD τ).loc main_arg2)) (funext fun b => Fin.ext ?_)
  match b with
  | ⟨0, _⟩ => show 0 * 1024 + 1 * cc.val = cc.val; omega
  | ⟨1, _⟩ => show 0 * 1024 + 1 * a.val = a.val; omega

/-- The second matrix's block is the whole launch matrix. -/
theorem wkblk_apply (hO : Ok m) (c : Dev nD) (t : Fin (cfgM m hO).N) (cc a : Fin 1024) :
    wkblk m hO c t (ix2 cc a) = (m ((c : Thread nD τ).loc main_arg3) : S1024x1024.Idx → EReal) (ix2 cc a) := by
  show V m c main_v1 ((((cfgM m hO).win 2).blk t).view.emb (ix2 cc a)) = _
  refine (V_main_v1 m c _).trans ?_
  refine congrArg (m ((c : Thread nD τ).loc main_arg3)) (funext fun b => Fin.ext ?_)
  match b with
  | ⟨0, _⟩ => show 0 * 1024 + 1 * cc.val = cc.val; omega
  | ⟨1, _⟩ => show 0 * 1024 + 1 * a.val = a.val; omega

/-- The third matrix's block is the whole launch matrix. -/
theorem wvblk_apply (hO : Ok m) (c : Dev nD) (t : Fin (cfgM m hO).N) (cc a : Fin 1024) :
    wvblk m hO c t (ix2 cc a) = (m ((c : Thread nD τ).loc main_arg4) : S1024x1024.Idx → EReal) (ix2 cc a) := by
  show V m c main_v2 ((((cfgM m hO).win 3).blk t).view.emb (ix2 cc a)) = _
  refine (V_main_v2 m c _).trans ?_
  refine congrArg (m ((c : Thread nD τ).loc main_arg4)) (funext fun b => Fin.ext ?_)
  match b with
  | ⟨0, _⟩ => show 0 * 1024 + 1 * cc.val = cc.val; omega
  | ⟨1, _⟩ => show 0 * 1024 + 1 * a.val = a.val; omega

/-- The length word the body reads at point `t` is the launch table's entry `t`. -/
theorem len_at (hO : Ok m) (c : Dev nD) (t : Fin (cfgM m hO).N) :
    lenWord c (grid0.coords t) (tbl m 0) = (m ((c : Thread nD τ).loc main_arg1) : S32.Idx → BitVec 32) (ix1 (⟨t.val, tN m hO t⟩ : Fin 32)) := by
  refine (lenWord_eq c (grid0.coords t) (tbl m 0)).trans ?_
  obtain ⟨e, -, -⟩ := idx_facts t
  obtain rfl : c = 0 := Subsingleton.elim _ _
  show V m 0 main_arg1 _ = _
  refine (congrFun (V_main_arg1 m 0) _).trans ?_
  exact congrArg (m (((0 : Dev nD) : Thread nD τ).loc main_arg1)) (funext fun a => Fin.ext (by match a with | ⟨0, _⟩ => exact e))

/-- The result array as one function of the argument arrays: entry `(b, q, v)` is the attention of sequence `b`. -/
def G (x0 : S32x512x1024.Idx → EReal) (x1 : S32.Idx → BitVec 32) (x2 x3 x4 : S1024x1024.Idx → EReal) : S32x512x1024.Idx → EReal := fun i =>
  attnSumThenDiv (x1 (ix1 (⟨(i 0).val, (i 0).isLt⟩ : Fin 32))) (Ideal.ofBits .f32 0xCF000000#32)
    (fun q cc => x0 (ix3 (⟨(i 0).val, (i 0).isLt⟩ : Fin 32) q cc)) (fun cc a => x2 (ix2 cc a)) (fun cc a => x3 (ix2 cc a)) (fun cc a => x4 (ix2 cc a))
    (⟨(i 1).val, (i 1).isLt⟩ : Fin 512) (⟨(i 2).val, (i 2).isLt⟩ : Fin 1024)

/-- That function of the launch's argument arrays. -/
abbrev Gm (c : Dev nD) : S32x512x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- Entry `(u, q, v)` of point `t`'s output block is entry `(t, q, v)` of the array. -/
theorem emb_at (hO : Ok m) (t : Fin (cfgM m hO).N) (u : Fin 1) (q : Fin 512) (v : Fin 1024) :
    (((cfgM m hO).win 4).blk t).view.emb (ix3 u q v) = ix3 (⟨t.val, tN m hO t⟩ : Fin 32) q v := by
  obtain ⟨-, -, e4⟩ := idx_facts t
  refine funext fun a => Fin.ext ?_
  match a with
  | ⟨0, _⟩ => show cc0_transform_4 (grid0.coords t) 0 * 1 + 1 * u.val = t.val; rw [e4]; show t.val * 1 + 1 * u.val = t.val; omega
  | ⟨1, _⟩ => show cc0_transform_4 (grid0.coords t) 1 * 512 + 1 * q.val = q.val; rw [e4]; show 0 * 512 + 1 * q.val = q.val; omega
  | ⟨2, _⟩ => show cc0_transform_4 (grid0.coords t) 2 * 1024 + 1 * v.val = v.val; rw [e4]; show 0 * 1024 + 1 * v.val = v.val; omega

/-- WHAT POINT `t` WRITES BACK is block `t` of that function of the argument arrays. -/
theorem flushed_eq (hO : Ok m) (c : Dev nD) (t : Fin (cfgM m hO).N) :
    (dats m hO 0 c).flushed 4 t = (((cfgM m hO).win 4).blk t).view.read (Elt Ideal) (Gm m c) := by
  show ((cfgM m hO).win 4).cut (grid0.coords t) ((dats m hO 0 c).after 4 t) = _
  rw [after0_4]
  unfold outsAt0
  refine funext fun (j : S1x512x1024.Idx) => ?_
  obtain ⟨u, q, v, rfl⟩ : ∃ (u : Fin 1) (q : Fin 512) (v : Fin 1024), j = ix3 u q v := ⟨j 0, j 1, j 2, eq_ix3 j⟩
  obtain rfl : u = 0 := Subsingleton.elim _ _
  show out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t)
      (xblk m hO c t) (wqblk m hO c t) (wkblk m hO c t) (wvblk m hO c t) (tbl m 0) (ix3 0 q v)
    = Gm m c ((((cfgM m hO).win 4).blk t).view.emb (ix3 0 q v))
  refine (congrFun (out_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t)
      (xblk m hO c t) (wqblk m hO c t) (wkblk m hO c t) (wvblk m hO c t) (tbl m 0)) (ix3 0 q v)).trans ?_
  refine (Cert.KernelIdeal.Pay.pay_apply _ (xblk m hO c t) (wqblk m hO c t) (wkblk m hO c t) (wvblk m hO c t) q v).trans ?_
  refine Eq.trans ?_ (congrArg (Gm m c) (emb_at m hO t 0 q v)).symm
  show _ = attnSumThenDiv _ _ _ _ _ _ q v
  rw [len_at]
  simp only [xblk_apply, wqblk_apply, wkblk_apply, wvblk_apply]

/-- Every entry of the array is in the block of the point numbered by its first coordinate. -/
theorem cover (hO : Ok m) (c : Dev nD) (i : S32x512x1024.Idx) :
    ∃ t : Fin (cfgM m hO).N, ((cfgM m hO).win 4).flush t = true ∧ i ∈ (((cfgM m hO).win 4).blk t).view.set := by
  obtain ⟨b, q, v, rfl⟩ : ∃ (b : Fin 32) (q : Fin 512) (v : Fin 1024), i = ix3 b q v := ⟨i 0, i 1, i 2, eq_ix3 i⟩
  have hN : (cfgM m hO).N = 32 := N_0
  have hb : b.val < (cfgM m hO).N := by rw [hN]; exact b.isLt
  refine ⟨⟨b.val, hb⟩, flush0_4 (adm m hO) _, ?_⟩
  have h := (((cfgM m hO).win 4).blk ⟨b.val, hb⟩).view.emb_mem_set (ix3 (0 : Fin 1) q v)
  rw [emb_at m hO ⟨b.val, hb⟩ 0 q v] at h
  exact h

/-- So the array ends holding that function. -/
theorem final (hO : Ok m) (c : Dev nD) : (dats m hO 0 c).arrAt 4 (cfgM m hO).N = Gm m c :=
  (dats m hO 0 c).arrAt_eq_of_cover 4 (Gm m c) (fun t _ => flushed_eq m hO c t) (cover m hO c)

/-- The kernel's run, read: the result array at that function of the arguments, the arguments unchanged. -/
theorem run (hO : Ok m) : θ_run defs (onTc (τ := τ) (main (F := Ideal))) ⟨m, fun _ => 0, ρ⟩ fun r => ∀ c : Dev nD,
      r.2.mem ((c.tc : Thread nD τ).loc main_v3) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 4).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ hO)

end AtIdeal

end Cert.KernelIdeal.Value
end
-- ==== Proof.RefValue.lean ====
/-
  The reference program's result at an index.

  The reference forms the queries, keys and values of each sequence as row products, the scores as the products of a
  query row with the key rows, replaces the scores of the key positions not below the sequence's length word by a
  fill value, takes each row's largest entry, the exponentials of the differences from it, their total, the quotients of
  the exponentials by the total, the sum of the value rows weighted by the quotients, and adds the query position's own
  value row. Read stage by stage at an index (b, q, ·) this is the attention of sequence b with every weight divided by
  the total before the value rows are summed.
-/
import proofs.«410006_j24086176596074_2_alg».proof.Proof.Gen.ReferenceIdeal.Read
import proofs.«410006_j24086176596074_2_alg».proof.Proof.Attn
import Idealize.ShloMosaic.Lib.ValueIdx
import Idealize.ShloMosaic.PureOps.Ideal.Laws

noncomputable section

namespace Cert.Attn.Ref

open Idealize.ShloMosaic Idealize.ShloMosaic.ValueIdx
open Cert.ReferenceIdeal Cert.ReferenceIdeal.Gen Cert.ReferenceIdeal.Read

/-- The rows of sequence b. -/
abbrev rows (x0 : (⟨S32x512x1024, .f32⟩ : BufTy).Contents (Elt Ideal)) (b : Fin 32) : Fin 512 → Fin 1024 → EReal :=
  fun q c => x0 (ix3 b q c)

/-- A projection matrix by its two coordinates. -/
abbrev mat (w : (⟨S1024x1024, .f32⟩ : BufTy).Contents (Elt Ideal)) : Fin 1024 → Fin 1024 → EReal :=
  fun c a => w (ix2 c a)

/-- The fill value: the float whose bits are 0xCF000000, −2³¹. -/
abbrev fill : EReal := Ideal.ofBits .f32 0xCF000000#32

/-! ## The three projections -/

/-- The queries at (b, q, a): row q of sequence b times column a of the first matrix. -/
theorem v0_at (x0 : (⟨S32x512x1024, .f32⟩ : BufTy).Contents (Elt Ideal))
    (x2 : (⟨S1024x1024, .f32⟩ : BufTy).Contents (Elt Ideal)) (b : Fin 32) (q : Fin 512) (a : Fin 1024) :
    val_main_v0 (F := Ideal) x0 x2 (ix3 b q a) = proj (rows x0 b) (mat x2) q a := by
  rw [val_main_v0_apply]
  unfold proj
  refine Finset.sum_congr rfl fun c _ => ?_
  have e1 : lidx_main_v0 (ix3 b q a) c = ix3 b q c :=
    funext fun d => Fin.ext (by match d with | ⟨0, _⟩ => rfl | ⟨1, _⟩ => rfl | ⟨2, _⟩ => rfl)
  have e2 : ridx_main_v0 (ix3 b q a) c = ix2 c a :=
    funext fun d => Fin.ext (by match d with | ⟨0, _⟩ => rfl | ⟨1, _⟩ => rfl)
  rw [e1, e2]

/-- The keys at (b, k, a). -/
theorem v1_at (x0 : (⟨S32x512x1024, .f32⟩ : BufTy).Contents (Elt Ideal))
    (x3 : (⟨S1024x1024, .f32⟩ : BufTy).Contents (Elt Ideal)) (b : Fin 32) (q : Fin 512) (a : Fin 1024) :
    val_main_v1 (F := Ideal) x0 x3 (ix3 b q a) = proj (rows x0 b) (mat x3) q a := by
  rw [val_main_v1_apply]
  unfold proj
  refine Finset.sum_congr rfl fun c _ => ?_
  have e1 : lidx_main_v1 (ix3 b q a) c = ix3 b q c :=
    funext fun d => Fin.ext (by match d with | ⟨0, _⟩ => rfl | ⟨1, _⟩ => rfl | ⟨2, _⟩ => rfl)
  have e2 : ridx_main_v1 (ix3 b q a) c = ix2 c a :=
    funext fun d => Fin.ext (by match d with | ⟨0, _⟩ => rfl | ⟨1, _⟩ => rfl)
  rw [e1, e2]

/-- The values at (b, k, v). -/
theorem v2_at (x0 : (⟨S32x512x1024, .f32⟩ : BufTy).Contents (Elt Ideal))
    (x4 : (⟨S1024x1024, .f32⟩ : BufTy).Contents (Elt Ideal)) (b : Fin 32) (q : Fin 512) (a : Fin 1024) :
    val_main_v2 (F := Ideal) x0 x4 (ix3 b q a) = proj (rows x0 b) (mat x4) q a := by
  rw [val_main_v2_apply]
  unfold proj
  refine Finset.sum_congr rfl fun c _ => ?_
  have e1 : lidx_main_v2 (ix3 b q a) c = ix3 b q c :=
    funext fun d => Fin.ext (by match d with | ⟨0, _⟩ => rfl | ⟨1, _⟩ => rfl | ⟨2, _⟩ => rfl)
  have e2 : ridx_main_v2 (ix3 b q a) c = ix2 c a :=
    funext fun d => Fin.ext (by match d with | ⟨0, _⟩ => rfl | ⟨1, _⟩ => rfl)
  rw [e1, e2]

/-! ## The scores and the mask -/

/-- The score at (b, q, k): query row q against key row k. -/
theorem v10_at (x0 : (⟨S32x512x1024, .f32⟩ : BufTy).Contents (Elt Ideal))
    (x2 x3 : (⟨S1024x1024, .f32⟩ : BufTy).Contents (Elt Ideal)) (b : Fin 32) (q k : Fin 512) :
    val_main_v10 (F := Ideal) x0 x2 x3 (ix3 b q k)
      = score (proj (rows x0 b) (mat x2)) (proj (rows x0 b) (mat x3)) q k := by
  rw [val_main_v10_apply]
  unfold score
  refine Finset.sum_congr rfl fun a _ => ?_
  have e1 : lidx_main_v10 (ix3 b q k) a = ix3 b q a :=
    funext fun d => Fin.ext (by match d with | ⟨0, _⟩ => rfl | ⟨1, _⟩ => rfl | ⟨2, _⟩ => rfl)
  have e2 : ridx_main_v10 (ix3 b q k) a = ix3 b k a :=
    funext fun d => Fin.ext (by match d with | ⟨0, _⟩ => rfl | ⟨1, _⟩ => rfl | ⟨2, _⟩ => rfl)
  rw [e1, e2, v0_at, v1_at]

/-- The mask at (b, q, k): key position k against the length word of sequence b. -/
theorem mask_at (x1 : (⟨S32, .i32⟩ : BufTy).Contents (Elt Ideal)) (b : Fin 32) (q k : Fin 512) :
    val_main_call0_v0 (F := Ideal) x1 (ix3 b q k) = keyBelow (x1 (ix1 b)) k := by
  rw [val_main_call0_v0_apply, val_main_v9_apply, val_main_v8_apply, val_main_v6_apply, val_main_v4_apply,
    val_main_v3_apply, val_main_v7_apply, val_main_v5_apply]
  have e : idx_main_v5 (idx_main_v7 (idx_main_v9 (idx_main_call0_v0 (ix3 b q k)))) = ix1 b :=
    funext fun d => Fin.ext (by match d with | ⟨0, _⟩ => rfl)
  rw [e]
  rfl

/-- The masked score at (b, q, k). -/
theorem v11_at (x0 : (⟨S32x512x1024, .f32⟩ : BufTy).Contents (Elt Ideal)) (x1 : (⟨S32, .i32⟩ : BufTy).Contents (Elt Ideal))
    (x2 x3 : (⟨S1024x1024, .f32⟩ : BufTy).Contents (Elt Ideal)) (b : Fin 32) (q k : Fin 512) :
    val_main_v11 (F := Ideal) x0 x1 x2 x3 (ix3 b q k)
      = scores (x1 (ix1 b)) fill (rows x0 b) (mat x2) (mat x3) q k := by
  rw [val_main_v11_apply, mask_at, v10_at, val_main_call0_v1_apply, val_main_cst_apply]
  rfl

/-! ## The row maximum -/

/-- The float whose bits are 0xFF800000 is the bottom element. -/
theorem ofBits_negInf : Ideal.ofBits .f32 0xFF800000#32 = (⊥ : EReal) := by
  simp [Ideal.ofBits, Ideal.ieee]

/-- The last axis of a [32, 512, 512] array reduces to [32, 512]. -/
theorem reduces_last : S32x512x512.Reduces [2] S32x512 := by decide

/-- The index (b, q) with k put back on the last axis is (b, q, k). -/
theorem lift_at (b : Fin 32) (q : Fin 512) (k : Fin (S32x512x512.size 2)) :
    reduces_last.lift (ix2 b q) k = ix3 b q (⟨k.val, k.isLt⟩ : Fin 512) := by
  funext c; apply Fin.ext
  match c with | ⟨0, _⟩ => rfl | ⟨1, _⟩ => rfl | ⟨2, _⟩ => rfl

/-- The running maximum at (b, q): the largest masked score of the row. -/
theorem v14_at (x0 : (⟨S32x512x1024, .f32⟩ : BufTy).Contents (Elt Ideal)) (x1 : (⟨S32, .i32⟩ : BufTy).Contents (Elt Ideal))
    (x2 x3 : (⟨S1024x1024, .f32⟩ : BufTy).Contents (Elt Ideal)) (b : Fin 32) (q : Fin 512) :
    val_main_v14 (F := Ideal) x0 x1 x2 x3 (ix2 b q)
      = rowMax (scores (x1 (ix1 b)) fill (rows x0 b) (mat x2) (mat x3) q) := by
  rw [val_main_v14_apply, val_main_v13_apply, val_main_cst_1_apply]
  unfold val_main_v12
  rw [Host.reduce_eq_fold_single FloatOps.maximumf _ _ reducesTo_S32x512x512_S32x512_d2 reduces_last h_S_,
    val_main_cst_0_apply]
  have hf : (val_main_v11 (F := Ideal) x0 x1 x2 x3 ∘ reduces_last.lift (ix2 b q))
      = fun k : Fin 512 => scores (x1 (ix1 b)) fill (rows x0 b) (mat x2) (mat x3) q k :=
    funext fun k => by
      show val_main_v11 (F := Ideal) x0 x1 x2 x3 (reduces_last.lift (ix2 b q) k) = _
      rw [lift_at, v11_at]
      rfl
  rw [hf]
  simp only [Ideal.ofBits_def, Ideal.maximumf_def, ofBits_negInf]
  unfold rowMax
  exact max_eq_right bot_le

/-! ## The weights, their total, and the result -/

/-- The exponential at (b, q, k): the weight of key k in query row q. -/
theorem v18_at (x0 : (⟨S32x512x1024, .f32⟩ : BufTy).Contents (Elt Ideal)) (x1 : (⟨S32, .i32⟩ : BufTy).Contents (Elt Ideal))
    (x2 x3 : (⟨S1024x1024, .f32⟩ : BufTy).Contents (Elt Ideal)) (b : Fin 32) (q k : Fin 512) :
    val_main_v18 (F := Ideal) x0 x1 x2 x3 (ix3 b q k)
      = weight (scores (x1 (ix1 b)) fill (rows x0 b) (mat x2) (mat x3)) q k := by
  rw [val_main_v18_apply, val_main_v17_apply, val_main_v16_apply, val_main_v15_apply]
  have e : idx_main_v15 (idx_main_v16 (ix3 b q k)) = ix2 b q :=
    funext fun d => Fin.ext (by match d with | ⟨0, _⟩ => rfl | ⟨1, _⟩ => rfl)
  rw [e, v11_at, v14_at]
  rfl

/-- The sum of the exponentials at (b, q): the total of the row's weights. -/
theorem v19_at (x0 : (⟨S32x512x1024, .f32⟩ : BufTy).Contents (Elt Ideal)) (x1 : (⟨S32, .i32⟩ : BufTy).Contents (Elt Ideal))
    (x2 x3 : (⟨S1024x1024, .f32⟩ : BufTy).Contents (Elt Ideal)) (b : Fin 32) (q : Fin 512) :
    val_main_v19 (F := Ideal) x0 x1 x2 x3 (ix2 b q)
      = total (scores (x1 (ix1 b)) fill (rows x0 b) (mat x2) (mat x3)) q := by
  rw [val_main_v19_apply, val_main_cst_2_apply, Ideal.ofBits_def, Ideal.ofBits_zero_f32, zero_add]
  unfold total
  refine Finset.sum_congr rfl fun k _ => ?_
  have e : idx_main_v19 (ix2 b q) k = ix3 b q k :=
    funext fun d => Fin.ext (by match d with | ⟨0, _⟩ => rfl | ⟨1, _⟩ => rfl | ⟨2, _⟩ => rfl)
  rw [e, v18_at]

/-- The quotient at (b, q, k): the weight over the total. -/
theorem v22_at (x0 : (⟨S32x512x1024, .f32⟩ : BufTy).Contents (Elt Ideal)) (x1 : (⟨S32, .i32⟩ : BufTy).Contents (Elt Ideal))
    (x2 x3 : (⟨S1024x1024, .f32⟩ : BufTy).Contents (Elt Ideal)) (b : Fin 32) (q k : Fin 512) :
    val_main_v22 (F := Ideal) x0 x1 x2 x3 (ix3 b q k)
      = Ideal.div (weight (scores (x1 (ix1 b)) fill (rows x0 b) (mat x2) (mat x3)) q k)
          (total (scores (x1 (ix1 b)) fill (rows x0 b) (mat x2) (mat x3)) q) := by
  rw [val_main_v22_apply, val_main_v21_apply, val_main_v20_apply]
  have e : idx_main_v20 (idx_main_v21 (ix3 b q k)) = ix2 b q :=
    funext fun d => Fin.ext (by match d with | ⟨0, _⟩ => rfl | ⟨1, _⟩ => rfl)
  rw [e, v18_at, v19_at]
  rfl

/-- The reference's result at (b, q, v) is the attention of sequence b at (q, v), each weight divided by the total
    before the value rows are summed, plus the value row of position q. -/
theorem ref_apply (x0 : (⟨S32x512x1024, .f32⟩ : BufTy).Contents (Elt Ideal)) (x1 : (⟨S32, .i32⟩ : BufTy).Contents (Elt Ideal))
    (x2 x3 x4 : (⟨S1024x1024, .f32⟩ : BufTy).Contents (Elt Ideal)) (b : Fin 32) (q : Fin 512) (v : Fin 1024) :
    Cert.ReferenceIdeal.Read.val_main_v24 (F := Ideal) x0 x1 x2 x3 x4 (ix3 b q v)
      = Cert.Attn.attnDivThenSum (x1 (ix1 b)) (Ideal.ofBits .f32 0xCF000000#32)
          (fun q c => x0 (ix3 b q c)) (fun c a => x2 (ix2 c a)) (fun c a => x3 (ix2 c a)) (fun c a => x4 (ix2 c a)) q v := by
  rw [val_main_v24_apply, val_main_v23_apply, v2_at]
  unfold attnDivThenSum
  refine congrArg (· + proj (rows x0 b) (mat x4) q v) (Finset.sum_congr rfl fun k _ => ?_)
  have e1 : lidx_main_v23 (ix3 b q v) k = ix3 b q k :=
    funext fun d => Fin.ext (by match d with | ⟨0, _⟩ => rfl | ⟨1, _⟩ => rfl | ⟨2, _⟩ => rfl)
  have e2 : ridx_main_v23 (ix3 b q v) k = ix3 b k v :=
    funext fun d => Fin.ext (by match d with | ⟨0, _⟩ => rfl | ⟨1, _⟩ => rfl | ⟨2, _⟩ => rfl)
  rw [e1, e2, v22_at, v2_at]

end Cert.Attn.Ref

end
-- ==== Proof.FiniteInputs.lean ====
/-
  The printed precondition read back: when `finite_inputs` of the five arguments is the one-bit word 1, every entry
  of the four float arrays is a real number.

  The predicate compares `|x| < +∞` entry by entry on each float array, reduces each comparison by `and` over every
  axis, and conjoins the four bits. A conjunction of one-bit words that is 1 has every conjunct 1; a reduction by
  `and` over all axes that is 1 had a 1 at every entry; and an extended real whose absolute value `max x (−x)` lies
  strictly below `⊤` is neither `⊤` nor `⊥`, hence the image of a real.
-/
import proofs.«410006_j24086176596074_2_alg».proof.Pre_finite_inputs
import proofs.«410006_j24086176596074_2_alg».proof.Proof.Gen.Pre_finite_inputs
import proofs.«410006_j24086176596074_2_alg».proof.Proof.Attn
import Idealize.ShloMosaic.Lib.ReduceAll
import Idealize.ShloMosaic.PureOps.Ideal
import Idealize.ShloMosaic.Lib.ValueIdx

noncomputable section

namespace Cert.Attn.Finite

open Idealize.ShloMosaic Idealize.ShloMosaic.ValueIdx
open Cert.Pre_finite_inputs

/-- The shape of rank 0 has one index. -/
local instance : Subsingleton S_.Idx := ⟨fun a b => funext fun d => d.elim0⟩

/-- The f32 pattern `0x7F800000` denotes `+∞`. -/
theorem inf_bits : Ideal.ofBits .f32 0x7F800000#32 = (⊤ : EReal) := by
  simp [Ideal.ofBits, Ideal.ieee]

/-- An extended real whose absolute value `max x (−x)` is strictly below `⊤` is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One entry of the comparison `|x| < +∞` (the bound a rank-0 constant spread over the array) being 1 says that the
    entry of `x` is a real number. -/
theorem isReal_of_cmp {s : Shape} (hb : S_.BroadcastsInDim s (![] : Fin 0 → Fin s.rank)) (x : FVec Ideal s .f32)
    (i : s.Idx)
    (h : cmpf .olt (Host.absf x) (broadcastInDim s ![] hb (constant (F := Ideal) S_ .f32 0x7F800000#32)) i = 1#1) :
    IsReal (x i) := by
  apply isReal_of_abs_lt_top
  rw [← inf_bits]
  exact h

/-- The precondition read back: every entry of the four float arrays is a real number. -/
theorem reals_of_pre [Cert.Pre_finite_inputs.Facts] (x0 : FVec Ideal S32x512x1024 .f32) (x1 : IVec S32 32)
    (x2 x3 x4 : FVec Ideal S1024x1024 .f32)
    (h : Cert.Pre_finite_inputs.fn (F := Ideal) x0 x1 x2 x3 x4 = fun _ => 1#1) :
    (∀ i, Cert.Attn.IsReal (x0 i)) ∧ (∀ i, Cert.Attn.IsReal (x2 i)) ∧ (∀ i, Cert.Attn.IsReal (x3 i))
      ∧ (∀ i, Cert.Attn.IsReal (x4 i)) := by
  have h0 := congrFun h ValueIdx.ix0
  dsimp only [Cert.Pre_finite_inputs.fn, Cert.Pre_finite_inputs.fn_part1, andi] at h0
  obtain ⟨h012, h4⟩ := IntOp.andi_eq_one.1 h0
  obtain ⟨h01, h3⟩ := IntOp.andi_eq_one.1 h012
  obtain ⟨h0', h2⟩ := IntOp.andi_eq_one.1 h01
  refine ⟨fun i => ?_, fun i => ?_, fun i => ?_, fun i => ?_⟩
  · exact isReal_of_cmp _ x0 i (Host.reduce_andi_all _ _ _ _ _ h0' i)
  · exact isReal_of_cmp _ x2 i (Host.reduce_andi_all _ _ _ _ _ h2 i)
  · exact isReal_of_cmp _ x3 i (Host.reduce_andi_all _ _ _ _ _ h3 i)
  · exact isReal_of_cmp _ x4 i (Host.reduce_andi_all _ _ _ _ _ h4 i)

end Cert.Attn.Finite

end
-- ==== Proof.Bridge.lean ====
/-
  The kernel's result array and the reference's result are one function of the argument arrays, when every float
  input entry is a real number.

  Entry `(b, q, v)` of the kernel's array is the attention of sequence `b` with the weighted sum of the value rows divided
  by the weights' total (Proof/KernelValue.lean); the reference's entry is the same attention with each weight divided
  by the total before the value rows are summed (Proof/RefValue.lean). Moving the division across the finite sum is an
  identity of real numbers: the precondition makes every input entry real (Proof/FiniteInputs.lean), hence every
  projection, score, weight and total, the total being a positive real (Proof/AttnLaw.lean).
-/
import proofs.«410006_j24086176596074_2_alg».proof.Proof.KernelValue
import proofs.«410006_j24086176596074_2_alg».proof.Proof.RefValue
import proofs.«410006_j24086176596074_2_alg».proof.Proof.AttnLaw
import proofs.«410006_j24086176596074_2_alg».proof.Proof.FiniteInputs

noncomputable section

namespace Cert.Attn.Bridge

open Idealize.ShloMosaic Idealize.ShloMosaic.ValueIdx

/-- Under the precondition the reference's result is the kernel's function of the argument arrays, entry by entry. -/
theorem result_eq [Cert.Pre_finite_inputs.Facts] (x0 : FVec Ideal Cert.Pre_finite_inputs.S32x512x1024 .f32) (x1 : IVec Cert.Pre_finite_inputs.S32 32)
    (x2 x3 x4 : FVec Ideal Cert.Pre_finite_inputs.S1024x1024 .f32)
    (h : Cert.Pre_finite_inputs.fn (F := Ideal) x0 x1 x2 x3 x4 = fun _ => 1#1) :
    Cert.ReferenceIdeal.Read.val_main_v24 (F := Ideal) x0 x1 x2 x3 x4 = Cert.KernelIdeal.Value.G x0 x1 x2 x3 x4 := by
  obtain ⟨h0, h2, h3, h4⟩ := Cert.Attn.Finite.reals_of_pre x0 x1 x2 x3 x4 h
  funext i
  obtain ⟨b, q, v, rfl⟩ : ∃ (b : Fin 32) (q : Fin 512) (v : Fin 1024), i = ix3 b q v := ⟨i 0, i 1, i 2, eq_ix3 i⟩
  refine (Cert.Attn.Ref.ref_apply x0 x1 x2 x3 x4 b q v).trans ?_
  exact (Cert.Attn.attn_arrangements (L := 512) (C := 1024) (A := 1024) (D := 1024) (by decide) (x1 (ix1 b)) _ Cert.Attn.fill_isReal
    (fun q c => x0 (ix3 b q c)) (fun c a => x2 (ix2 c a)) (fun c a => x3 (ix2 c a)) (fun c a => x4 (ix2 c a))
    (fun _ _ => h0 _) (fun _ _ => h2 _) (fun _ _ => h3 _) (fun _ _ => h4 _) q v).symm

end Cert.Attn.Bridge

end
-- ==== Proof.lean ====
/- The proof of `Cert.Claim`: the three frames, the (empty) idealization ledger, and the equivalence over the extended reals
   of a fused single-head attention kernel and its jnp reference.

   Per sequence `b` of 32, with `x` the sequence's `[512, 1024]` rows: `Q = x Wq`, `K = x Wk`, `V = x Wv`; the scores
   `Q Kᵀ` with the key positions at or beyond `lens[b]` replaced by `-2^31`; the weights `e^(s − max s)` of each query row;
   the result the weighted mean of the value rows plus `V`. The kernel divides the weighted SUM of the value rows by the
   weights' total; the reference divides each weight by the total and then sums. Over the extended reals the two agree
   where every quantity is a real number, which the precondition (every float input finite) provides; the length words
   are free (a length outside `[0, 512]` masks nothing or everything on both sides alike).

   The kernel's frames are the generated ones (its index maps read no table, so their side condition is `True`); the
   reference's frame is its generated run with the result dropped. The kernel's value is read off the generated frame run
   (Proof/KernelValue.lean over Proof/KernelPay.lean and Proof/KernelPayAt.lean), the reference's off its generated run and
   read-at-an-index lemmas (Proof/RefValue.lean), and Proof/Bridge.lean joins them by Proof/AttnLaw.lean's identity. -/
import proofs.«410006_j24086176596074_2_alg».proof.Defs
import proofs.«410006_j24086176596074_2_alg».proof.Proof.Gen.Kernel
import proofs.«410006_j24086176596074_2_alg».proof.Proof.Gen.Kernel.Skeleton
import proofs.«410006_j24086176596074_2_alg».proof.Proof.Gen.Kernel.Launch
import proofs.«410006_j24086176596074_2_alg».proof.Proof.Gen.Kernel.Points
import proofs.«410006_j24086176596074_2_alg».proof.Proof.Gen.Kernel.Frame
import proofs.«410006_j24086176596074_2_alg».proof.Proof.Gen.KernelIdeal
import proofs.«410006_j24086176596074_2_alg».proof.Proof.Gen.KernelIdeal.Skeleton
import proofs.«410006_j24086176596074_2_alg».proof.Proof.Gen.KernelIdeal.Launch
import proofs.«410006_j24086176596074_2_alg».proof.Proof.Gen.KernelIdeal.Points
import proofs.«410006_j24086176596074_2_alg».proof.Proof.Gen.KernelIdeal.Frame
import proofs.«410006_j24086176596074_2_alg».proof.Proof.Gen.ReferenceIdeal
import proofs.«410006_j24086176596074_2_alg».proof.Proof.Gen.Pre_finite_inputs
import proofs.«410006_j24086176596074_2_alg».proof.Proof.Gen.ReferenceIdeal.Run
import proofs.«410006_j24086176596074_2_alg».proof.Proof.Gen.ReferenceIdeal.Read
import proofs.«410006_j24086176596074_2_alg».proof.Proof.Bridge
import Idealize.ShloMosaic.Adequacy
import Idealize.ShloMosaic.Init

noncomputable section

namespace Cert.Proof

open Idealize.ShloMosaic Idealize.SL.Sem Cert.Kernel

/-- The word-level kernel runs and keeps its arguments: the generated frame, whose side condition on the prefetched
    table is `True` (no index map reads it). -/
theorem frame_kernel : @Cert.frame_Kernel Cert.Kernel.Gen.facts Cert.Pre_finite_inputs.Gen.facts :=
  fun m ρ _ => Cert.Kernel.Gen.frame m ρ trivial

/-- The idealized kernel likewise. -/
theorem frame_kernelIdeal : @Cert.frame_KernelIdeal Cert.KernelIdeal.Gen.facts Cert.Pre_finite_inputs.Gen.facts :=
  fun m ρ _ => Cert.KernelIdeal.Gen.frame m ρ trivial

/-- The reference runs and keeps its arguments: its generated run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the attention of every sequence in their result arrays: the kernel's run read
    (Proof/KernelValue.lean), the reference's run read and rearranged (Proof/Bridge.lean), on arguments that agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Value.Gm m c, Cert.KernelIdeal.Value.run m ρ trivial, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1, (hagree c).2.2.2.2]
  exact Cert.Attn.Bridge.result_eq _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
